-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x128 : Shape := ⟨2, ![600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x600000 32) (main_arg2 : FVec F S600000x128 .f32) (main_arg3 : FVec F S256x256 .f32) (main_arg4 : FVec F S256 .f32) (main_arg5 : FVec F S256x128 .f32) (main_arg6 : FVec F S128 .f32) (main_arg7 : FVec F S128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S100000x128 : Shape := ⟨2, ![100000, 128]⟩
abbrev S2x600000 : Shape := ⟨2, ![2, 600000]⟩
abbrev S600000x128 : Shape := ⟨2, ![600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x256 : Shape := ⟨2, ![1, 256]⟩
abbrev S1x128 : Shape := ⟨2, ![1, 128]⟩
abbrev S4000x128 : Shape := ⟨2, ![4000, 128]⟩
abbrev S128x256 : Shape := ⟨2, ![128, 256]⟩
abbrev S4000x256 : Shape := ⟨2, ![4000, 256]⟩
abbrev S4000 : Shape := ⟨1, ![4000]⟩
abbrev S4000x1 : Shape := ⟨2, ![4000, 1]⟩

abbrev nBuf : Space → Nat
  | .hbm => 20
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S100000x128, .f32⟩
  | .hbm, ⟨13, _⟩ => ⟨S600000x1, .i32⟩
  | .hbm, ⟨14, _⟩ => ⟨S100000x128, .f32⟩
  | .hbm, ⟨15, _⟩ => ⟨S1x256, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S256x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x600000_S1x600000_0_0 : S2x600000.Slices ![0, 0] S1x600000
  shapeCasts_S1x600000_S600000 : S1x600000.ShapeCasts S600000
  bcast_S_S100000x128 : S_.BroadcastsInDim S100000x128 (![] : Fin 0 → Fin S100000x128.rank)
  bcast_S600000_S600000x1_0 : S600000.BroadcastsInDim S600000x1 (![0] : Fin 1 → Fin S600000x1.rank)
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  slices_S256x256_o0_0_S128x256 : S256x256.Slices ![0, 0] S128x256
  slices_S256x256_o128_0_S128x256 : S256x256.Slices ![128, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  scatter_S100000x128_S600000x1_S600000x128_1_0_0_1_wf : ScatterDims.WF S100000x128 S600000x1 S600000x128 [1] [0] [0] 1
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)

variable [Facts₀]

def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x128 : Shape := ⟨2, ![600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000x256 : Shape := ⟨2, ![100000, 256]⟩
abbrev S1x256 : Shape := ⟨2, ![1, 256]⟩
abbrev S1x128 : Shape := ⟨2, ![1, 128]⟩
abbrev S100000 : Shape := ⟨1, ![100000]⟩
abbrev S100000x1 : Shape := ⟨2, ![100000, 1]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S100000x128, .f32⟩
  | .hbm, ⟨13, _⟩ => ⟨S600000x1, .i32⟩
  | .hbm, ⟨14, _⟩ => ⟨S100000x128, .f32⟩
  | .hbm, ⟨15, _⟩ => ⟨S100000x256, .f32⟩
  | .hbm, ⟨16, _⟩ => ⟨S100000x256, .f32⟩
  | .hbm, ⟨17, _⟩ => ⟨S1x256, .f32⟩
  | .hbm, ⟨18, _⟩ => ⟨S100000x256, .f32⟩
  | .hbm, ⟨19, _⟩ => ⟨S100000x256, .f32⟩
  | .hbm, ⟨20, _⟩ => ⟨S100000x256, .f32⟩
  | .hbm, ⟨21, _⟩ => ⟨S100000x256, .f32⟩
  | .hbm, ⟨22, _⟩ => ⟨S_, .f32⟩
  | .hbm, ⟨23, _⟩ => ⟨S100000x256, .f32⟩
  | .hbm, ⟨24, _⟩ => ⟨S100000x256, .f32⟩
  | .hbm, ⟨25, _⟩ => ⟨S_, .f32⟩
  | .hbm, ⟨26, _⟩ => ⟨S100000x256, .f32⟩
  | .hbm, ⟨27, _⟩ => ⟨S100000x256, .f32⟩
  | .hbm, ⟨28, _⟩ => ⟨S100000x256, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000, .f32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S100000x128 : S_.BroadcastsInDim S100000x128 (![] : Fin 0 → Fin S100000x128.rank)
  bcast_S600000_S600000x1_0 : S600000.BroadcastsInDim S600000x1 (![0] : Fin 1 → Fin S600000x1.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000x128_S600000x1_S600000x128_1_0_0_1_wf : ScatterDims.WF S100000x128 S600000x1 S600000x128 [1] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.RowSpec.lean ====
/-
  One output row of the fused layer, as a function of one row of the node features `x`, one row of the
  aggregated edge features `a`, and the layer's weights, on the extended reals.

    pre k   = Σ_{i<128} x i · W1 (i, k) + Σ_{i<128} a i · W1 (128 + i, k) + b1 k          (k < 256)
    act v   = v · logistic v
    lin j   = Σ_{k<256} act (pre k) · W2 (k, j) + b2 j                                      (j < 128)
    mean h  = (Σ_j h j) / 128
    out j   = (lin j − μ) · rsqrt (mean ((lin − μ)²) + ε) · γ j + β j + x j,   μ = mean lin

  The first layer is written in its SPLIT form: the contraction of the joined row [x, a] against W1 is the sum
  of the contraction of x against the top half of W1 and of a against the bottom half. That a sum over 256
  coordinates is the sum over the first 128 plus the sum over the last 128 holds in any commutative monoid, so
  on the extended reals it needs no finiteness of the entries (`sum_split`, `pre_of_joined`).
  The divisor 128.0 and the variance floor ε are kept as their f32 words: both programs spell the same words.
-/
import Idealize.ShloMosaic.PureOps.Ideal
import Idealize.ShloMosaic.PureOps.Ideal.Laws
import Mathlib.Algebra.BigOperators.Fin
import Idealize.ShloMosaic.Lib.ValueIdx

noncomputable section

namespace Cert.RowSpec

open Idealize.ShloMosaic

/-! ## Arrays as functions of their coordinates -/

/-- A rank-2 array as a function of its row and column. -/
abbrev mat {a b : ℕ} (w : (⟨2, ![a, b]⟩ : Shape).Idx → EReal) : Fin a → Fin b → EReal := fun i j => w (ValueIdx.ix2 i j)
/-- Row `p` of a rank-2 array. -/
abbrev rowAt {a b : ℕ} (v : (⟨2, ![a, b]⟩ : Shape).Idx → EReal) (p : Fin a) : Fin b → EReal := fun j => v (ValueIdx.ix2 p j)
/-- The one row of a `[1, b]` array. -/
abbrev row1 {b : ℕ} (v : (⟨2, ![1, b]⟩ : Shape).Idx → EReal) : Fin b → EReal := fun j => v (ValueIdx.ix2 (0 : Fin 1) j)
/-- A rank-1 array as a function of its coordinate. -/
abbrev vec {b : ℕ} (v : (⟨1, ![b]⟩ : Shape).Idx → EReal) : Fin b → EReal := fun j => v (ValueIdx.ix1 j)

/-! ## Halves of a 256-long axis -/

/-- Coordinate `i` of the first half of a 256-long axis. -/
abbrev lo (i : Fin 128) : Fin 256 := ⟨i.val, by omega⟩
/-- Coordinate `i` of the second half of a 256-long axis. -/
abbrev hi (i : Fin 128) : Fin 256 := ⟨128 + i.val, by omega⟩

/-- A sum over 256 coordinates is the sum over the first 128 plus the sum over the last 128, in any commutative
    monoid: only commutativity and associativity of the addition are used. -/
theorem sum_split {M : Type*} [AddCommMonoid M] (f : Fin 256 → M) :
    ∑ k : Fin 256, f k = (∑ i : Fin 128, f (lo i)) + ∑ i : Fin 128, f (hi i) :=
  Fin.sum_univ_add (a := 128) (b := 128) f

/-- The divisor of the two means, 128.0, as its f32 word. -/
abbrev width : EReal := Ideal.ofBits .f32 0x43000000#32
/-- The variance floor, the f32 nearest 1e-5, as its word. -/
abbrev eps : EReal := Ideal.ofBits .f32 0x3727C5AC#32

section
variable (W1 : Fin 256 → Fin 256 → EReal) (b1 : Fin 256 → EReal) (W2 : Fin 256 → Fin 128 → EReal)
  (b2 γ β : Fin 128 → EReal)

/-- The first linear layer at hidden coordinate `k`, split by halves of W1's rows. -/
def pre (x a : Fin 128 → EReal) (k : Fin 256) : EReal :=
  ((∑ i : Fin 128, x i * W1 (lo i) k) + ∑ i : Fin 128, a i * W1 (hi i) k) + b1 k

/-- SiLU: `v · logistic v`. -/
def act (v : EReal) : EReal := v * Ideal.logistic v

/-- The second linear layer at output coordinate `j`. -/
def lin (x a : Fin 128 → EReal) (j : Fin 128) : EReal :=
  (∑ k : Fin 256, act (pre W1 b1 x a k) * W2 k j) + b2 j

/-- The mean of a 128-long row: its sum divided by 128.0. -/
def mean (h : Fin 128 → EReal) : EReal := Ideal.div (∑ j : Fin 128, h j) width

/-- A row centred at its mean and scaled by the reciprocal root of its variance plus ε. -/
def normed (h : Fin 128 → EReal) (j : Fin 128) : EReal :=
  (h j - mean h) * Ideal.rsqrt (mean (fun q => (h q - mean h) * (h q - mean h)) + eps)

/-- One output row: the normalised second layer, scaled by γ, shifted by β, plus the residual `x`. -/
def rowOut (x a : Fin 128 → EReal) (j : Fin 128) : EReal :=
  normed (lin W1 b1 W2 b2 x a) j * γ j + β j + x j

/-- The layer on an array of `n` rows: output row `r` is `rowOut` of row `r` of `x` and row `r` of `a`. -/
def layer {n : ℕ} (x a : (⟨2, ![n, 128]⟩ : Shape).Idx → EReal) : (⟨2, ![n, 128]⟩ : Shape).Idx → EReal :=
  fun i => rowOut W1 b1 W2 b2 γ β (rowAt x (i 0)) (rowAt a (i 0)) (i 1)

/-- The first layer from the JOINED row: if `c` is `x` on the first 128 coordinates and `a` on the last 128,
    the one contraction of `c` against W1 is the split form. -/
theorem pre_of_joined (x a : Fin 128 → EReal) (c : Fin 256 → EReal) (hlo : ∀ i, c (lo i) = x i)
    (hhi : ∀ i, c (hi i) = a i) (k : Fin 256) :
    (∑ q : Fin 256, c q * W1 q k) + b1 k = pre W1 b1 x a k := by
  unfold pre
  rw [sum_split]
  simp only [hlo, hhi]

end

end Cert.RowSpec

end
-- ==== Proof.KernelRow.lean ====
/-
  The kernel body's stored value, read at one index of the 4000 × 128 block, is the row function of
  Proof/RowSpec.lean applied to that row of the two loaded blocks and to the resident weights.

  Entry (p, q) of the block depends on row p of the x block and row p of the aggregate block only: both matrix
  products contract along a row, the bias rows are broadcast down the rows, and the two means are sums along
  a row. At the ideal values a change of float format is the identity, a matrix product into a zero accumulator
  is the plain sum of products over the contraction coordinate, and a lane reduction from its neutral word is the
  plain sum over the lane coordinate; the top and bottom halves of W1 are its rows 0..127 and 128..255.
-/
import proofs.«115450_j6133213298854_1_alg».proof.Proof.Gen.KernelIdeal.Skeleton
import proofs.«115450_j6133213298854_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.RowSpec

/-! ## Layout reads the body needs: a vector as a column, and a column broadcast along the rows -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane-wise operations at an index -/

theorem logistic_at {s : Shape} {φ : FTy} (v : FVec Ideal s φ) (i : s.Idx) : logistic v i = Ideal.logistic (v i) := rfl
theorem rsqrt_at {s : Shape} {φ : FTy} (v : FVec Ideal s φ) (i : s.Idx) : rsqrt v i = Ideal.rsqrt (v i) := rfl

/-! ## The first matrix product, [4000, 128] × [128, 256], at an index -/

theorem lhs1_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs1_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs1_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs1_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- Entry (p, k) of the product into a zero accumulator: the sum over the 128 contraction coordinates. -/
theorem matmul1_apply {φ₁ φ₂ : FTy} (l : FVec Ideal S4000x128 φ₁) (r : FVec Ideal S128x256 φ₂) (p : Fin 4000) (k : Fin 256) :
    matmul dot_S4000x128_S128x256_S4000x256_1_0_0_1_n_n none l r (constant S4000x256 .f32 0x00000000#32) (ix2 p k)
      = ∑ i : Fin 128, l (ix2 p i) * r (ix2 i k) := by
  simp only [matmul]
  rw [Ideal.matmul_constant_zero_apply, ← Equiv.sum_comp (ValueIdx.contrEquiv1 dot_S4000x128_S128x256_S4000x256_1_0_0_1_n_n 128 rfl rfl).symm]
  refine Finset.sum_congr rfl fun i _ => ?_
  have hk := ValueIdx.contrEquiv1_symm_val dot_S4000x128_S128x256_S4000x256_1_0_0_1_n_n 128 rfl rfl i
  have el : dot_S4000x128_S128x256_S4000x256_1_0_0_1_n_n.lhsIdx (ix2 p k) ((ValueIdx.contrEquiv1 dot_S4000x128_S128x256_S4000x256_1_0_0_1_n_n 128 rfl rfl).symm i) = ix2 p i := funext fun a => Fin.ext (by
    match a with
    | ⟨0, _⟩ => exact lhs1_0 _ _
    | ⟨1, _⟩ => exact (lhs1_1 _ _).trans hk)
  have er : dot_S4000x128_S128x256_S4000x256_1_0_0_1_n_n.rhsIdx (ix2 p k) ((ValueIdx.contrEquiv1 dot_S4000x128_S128x256_S4000x256_1_0_0_1_n_n 128 rfl rfl).symm i) = ix2 i k := funext fun a => Fin.ext (by
    match a with
    | ⟨0, _⟩ => exact (rhs1_0 _ _).trans hk
    | ⟨1, _⟩ => exact rhs1_1 _ _)
  rw [el, er]

/-! ## The second matrix product, [4000, 256] × [256, 128], at an index -/

theorem lhs2_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs2_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs2_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs2_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Entry (p, q) of the product into a zero accumulator: the sum over the 256 contraction coordinates. -/
theorem matmul2_apply {φ₁ φ₂ : FTy} (l : FVec Ideal S4000x256 φ₁) (r : FVec Ideal S256x128 φ₂) (p : Fin 4000) (q : Fin 128) :
    matmul dot_S4000x256_S256x128_S4000x128_1_0_0_1_n_n none l r (constant S4000x128 .f32 0x00000000#32) (ix2 p q)
      = ∑ k : Fin 256, l (ix2 p k) * r (ix2 k q) := by
  simp only [matmul]
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p q) ((ValueIdx.contrEquiv1 dot_S4000x256_S256x128_S4000x128_1_0_0_1_n_n 256 rfl rfl).symm k) = ix2 p k := funext fun a => Fin.ext (by
    match a with
    | ⟨0, _⟩ => exact lhs2_0 _ _
    | ⟨1, _⟩ => exact (lhs2_1 _ _).trans hk)
  have er : dot_S4000x256_S256x128_S4000x128_1_0_0_1_n_n.rhsIdx (ix2 p q) ((ValueIdx.contrEquiv1 dot_S4000x256_S256x128_S4000x128_1_0_0_1_n_n 256 rfl rfl).symm k) = ix2 k q := funext fun a => Fin.ext (by
    match a with
    | ⟨0, _⟩ => exact (rhs2_0 _ _).trans hk
    | ⟨1, _⟩ => exact rhs2_1 _ _)
  rw [el, er]

/-! ## A row's sum -/

/-- The lane reduction of a [4000, 128] vector from the neutral word, at row `p`: the sum of that row. -/
theorem rowsum_apply (src : FVec Ideal S4000x128 .f32) (hφ : FKind.Formats .f32)
    (hacc : (0x00000000#32 : BitVec 32) = FKind.add.neutral .f32 hφ) (p : Fin 4000) :
    multiReduction .add [1] S4000 src 0x00000000#32 reduces_S4000x128_S4000 hφ hacc (ix1 p)
      = ∑ q : Fin 128, src (ix2 p q) := by
  refine (Ideal.multiReduction_add_single src 0x00000000#32 reduces_S4000x128_S4000 hφ hacc (ix1 p)).trans ?_
  exact Finset.sum_congr rfl fun q _ => congrArg src (funext fun a => Fin.ext (by
    match a with
    | ⟨0, _⟩ => rfl
    | ⟨1, _⟩ => rfl))

/-! ## The body's payloads at an index -/

section
variable (x0 x1 : Vec Ideal S4000x128 .f32) (w1 : Vec Ideal S256x256 .f32) (b1 : Vec Ideal S1x256 .f32)
  (w2 : Vec Ideal S256x128 .f32) (b2 g be : Vec Ideal S1x128 .f32)

/-- The second linear layer's output (before the normalisation) at (p, q): §lin§ of row p of the two blocks. -/
theorem pay2_apply (p : Fin 4000) (q : Fin 128) :
    k0_pay2 x0 x1 w1 b1 w2 b2 (ix2 p q)
      = lin (mat w1) (row1 b1) (mat w2) (row1 b2) (rowAt x0 p) (rowAt x1 p) q := by
  unfold k0_pay2
  simp only [addf_apply, mulf_apply, truncf_apply, logistic_at, matmul1_apply, matmul2_apply, slice2_axis0_eq,
    shapeCast_self, broadcastTo_1b_ab_apply, Nat.zero_add]
  rfl

/-- The row mean, kept as a column: at (p, ·) the mean of row p of the second layer's output. -/
theorem pay3_apply (p : Fin 4000) (u : Fin 1) :
    k0_pay3 x0 x1 w1 b1 w2 b2 (ix2 p u) = mean (rowAt (k0_pay2 x0 x1 w1 b1 w2 b2) p) := by
  unfold k0_pay3 mean
  refine congrArg (fun s => Ideal.div s width) ?_
  refine (shapeCast_a_a1_apply _ _ p u).trans ?_
  exact rowsum_apply _ _ _ p

/-- The centred row: at (p, q) the second layer's output minus its row's mean. -/
theorem pay5_apply (p : Fin 4000) (q : Fin 128) :
    k0_pay5 x0 x1 w1 b1 w2 b2 (ix2 p q)
      = k0_pay2 x0 x1 w1 b1 w2 b2 (ix2 p q) - mean (rowAt (k0_pay2 x0 x1 w1 b1 w2 b2) p) := by
  unfold k0_pay5
  simp only [subf_apply, broadcastTo_a1_ab_apply, pay3_apply]

/-- The row variance, kept as a column: at (p, ·) the mean of the squared centred row. -/
theorem pay4_apply (p : Fin 4000) (u : Fin 1) :
    k0_pay4 x0 x1 w1 b1 w2 b2 (ix2 p u)
      = mean (fun q => (rowAt (k0_pay2 x0 x1 w1 b1 w2 b2) p q - mean (rowAt (k0_pay2 x0 x1 w1 b1 w2 b2) p))
          * (rowAt (k0_pay2 x0 x1 w1 b1 w2 b2) p q - mean (rowAt (k0_pay2 x0 x1 w1 b1 w2 b2) p))) := by
  unfold k0_pay4
  refine congrArg (fun s => Ideal.div s width) ?_
  refine (shapeCast_a_a1_apply _ _ p u).trans ?_
  refine (rowsum_apply _ _ _ p).trans ?_
  refine Finset.sum_congr rfl fun q _ => ?_
  simp only [mulf_apply, subf_apply, broadcastTo_a1_ab_apply, pay3_apply]

/-- The stored value at (p, q) is the row function at row p of the two blocks. -/
theorem pay1_apply (p : Fin 4000) (q : Fin 128) :
    k0_pay1 x0 (k0_pay4 x0 x1 w1 b1 w2 b2) (k0_pay5 x0 x1 w1 b1 w2 b2) (Scalar.ofBits .f32 0x3727C5AC#32) g be (ix2 p q)
      = rowOut (mat w1) (row1 b1) (mat w2) (row1 b2) (row1 g) (row1 be) (rowAt x0 p) (rowAt x1 p) q := by
  have hrow : rowAt (k0_pay2 x0 x1 w1 b1 w2 b2) p = lin (mat w1) (row1 b1) (mat w2) (row1 b2) (rowAt x0 p) (rowAt x1 p) :=
    funext fun j => pay2_apply x0 x1 w1 b1 w2 b2 p j
  have hq : ∀ j, rowAt (k0_pay2 x0 x1 w1 b1 w2 b2) p j = lin (mat w1) (row1 b1) (mat w2) (row1 b2) (rowAt x0 p) (rowAt x1 p) j :=
    fun j => congrFun hrow j
  unfold k0_pay1
  simp only [addf_apply, mulf_apply, rsqrt_at, broadcast_apply, broadcastTo_a1_ab_apply, broadcastTo_1b_ab_apply,
    shapeCast_self, pay4_apply, pay5_apply, pay2_apply, hrow, hq]
  rfl

end

end Cert.KernelIdeal.RowValue

end
-- ==== Proof.Blocks.lean ====
/-
  From blocks to the array. Grid point t of the 25 stages rows 4000·t .. 4000·t + 3999 of the node features and of
  the aggregate, keeps the six weight arrays resident whole, and writes rows 4000·t .. 4000·t + 3999 of the result.
  What it writes at entry (p, q) of its block is the row function of row 4000·t + p of the two staged arrays
  (Proof/KernelRow.lean), that is, entry (4000·t + p, q) of `layer` of the whole arrays: a row of the result depends
  on the same row of the inputs only, so the blocks are restrictions of one whole-array function. The 25 blocks
  tile the 100000 rows (row r lies in block r / 4000), so after the run the result array is that function.
-/
import proofs.«115450_j6133213298854_1_alg».proof.Proof.Gen.KernelIdeal.Value
import proofs.«115450_j6133213298854_1_alg».proof.Proof.KernelRow
import proofs.«115450_j6133213298854_1_alg».proof.Proof.RowSpec
import Idealize.ShloMosaic.Lib.Pipeline.Value
import Idealize.ShloMosaic.Lib.ValueIdx

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.ValueIdx Cert.RowSpec Cert.KernelIdeal.RowValue
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One grid point -/

/-- Where entry `y` of a 4000-row block that starts at row `o` sits in the 100000-row array. -/
abbrev place (o : ℕ) (ho : o + 4000 ≤ 100000) (y : S4000x128.Idx) : S100000x128.Idx :=
  ix2 ⟨o + (y 0).val, by have := idx2_lt0 y; omega⟩ (y 1)

/-- If the two staged blocks are rows `o .. o + 3999` of `x` and `a` and the resident blocks are the weight arrays,
    the body's stored value at entry `y` is `layer` of the whole arrays at the entry's place. -/
theorem point_eq (x a : S100000x128.Idx → EReal) (w1 : S256x256.Idx → EReal) (b1 : S1x256.Idx → EReal)
    (w2 : S256x128.Idx → EReal) (b2 g be : S1x128.Idx → EReal)
    (xb ab : Vec Ideal S4000x128 .f32) (w1b : Vec Ideal S256x256 .f32) (b1b : Vec Ideal S1x256 .f32)
    (w2b : Vec Ideal S256x128 .f32) (b2b gb beb : Vec Ideal S1x128 .f32)
    (o : ℕ) (ho : o + 4000 ≤ 100000)
    (hx : ∀ y, xb y = x (place o ho y)) (ha : ∀ y, ab y = a (place o ho y))
    (hw1 : ∀ y, w1b y = w1 y) (hb1 : ∀ y, b1b y = b1 y) (hw2 : ∀ y, w2b y = w2 y)
    (hb2 : ∀ y, b2b y = b2 y) (hg : ∀ y, gb y = g y) (hbe : ∀ y, beb y = be y) (y : S4000x128.Idx) :
    k0_pay1 xb (k0_pay4 xb ab w1b b1b w2b b2b) (k0_pay5 xb ab w1b b1b w2b b2b) (Scalar.ofBits .f32 0x3727C5AC#32) gb beb y
      = layer (mat w1) (row1 b1) (mat w2) (row1 b2) (row1 g) (row1 be) x a (place o ho y) := by
  obtain rfl : w1b = w1 := funext hw1
  obtain rfl : b1b = b1 := funext hb1
  obtain rfl : w2b = w2 := funext hw2
  obtain rfl : b2b = b2 := funext hb2
  obtain rfl : gb = g := funext hg
  obtain rfl : beb = be := funext hbe
  obtain ⟨p, q, rfl⟩ : ∃ (p : Fin 4000) (q : Fin 128), y = ix2 p q := ⟨y 0, y 1, eq_ix2 y⟩
  rw [pay1_apply]
  unfold layer
  have e1 : rowAt xb p = rowAt x ((place o ho (ix2 p q)) 0) := funext fun j => hx (ix2 p j)
  have e2 : rowAt ab p = rowAt a ((place o ho (ix2 p q)) 0) := funext fun j => ha (ix2 p j)
  rw [e1, e2]

/-! ## The index maps, decided over the 25 grid points -/

/-- The two staged input windows move with the output window down the rows; every window sits at column block 0;
    the six resident windows stay at block (0, 0); the output's row block is at most 24. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (1 : Fin 2) = 0 ∧ win0_8.index t (0 : Fin 2) ≤ 24 :=
  (by decide +kernel : ∀ t : Fin grid0.N, _)

/-- Every row block 0..24 is SOME point's. -/
theorem idx_onto : ∀ q0 : Fin 25, ∃ t : Fin cfg0.N, win0_8.index t = ![q0.val, 0] :=
  (by decide +kernel : ∀ q0 : Fin 25, ∃ t : Fin grid0.N, win0_8.index t = ![q0.val, 0])

/-- The first row of point `t`'s output block. -/
abbrev base (t : Fin cfg0.N) : ℕ := win0_8.index t (0 : Fin 2) * 4000

theorem base_le (t : Fin cfg0.N) : base t + 4000 ≤ 100000 := by
  have h := (idx_facts t).2.2.2.2.2.2.2.2.2.2.2.2.2.2.2.2.2
  show win0_8.index t (0 : Fin 2) * 4000 + 4000 ≤ 100000
  omega

/-! ## The windows' blocks at a point, read off the arrays the region finds -/

theorem iblk0_apply (c : Dev nD) (t : Fin cfg0.N) (y : S4000x128.Idx) :
    iblk m c 0 t y = V m c main_arg0 (place (base t) (base_le t) y) := by
  obtain ⟨f00, f01, -⟩ := idx_facts t
  show V m c main_arg0 (((cfg0.win 0).blk t).view.emb y) = _
  refine congrArg (V m c main_arg0) (funext fun a => Fin.ext ?_)
  match a with
  | ⟨0, _⟩ => show win0_0.index t (0 : Fin 2) * 4000 + 1 * (y 0).val = win0_8.index t (0 : Fin 2) * 4000 + (y 0).val; omega
  | ⟨1, _⟩ => show win0_0.index t (1 : Fin 2) * 128 + 1 * (y 1).val = (y 1).val; omega

theorem iblk1_apply (c : Dev nD) (t : Fin cfg0.N) (y : S4000x128.Idx) :
    iblk m c 1 t y = V m c main_v4 (place (base t) (base_le t) y) := by
  obtain ⟨-, -, f10, f11, -⟩ := idx_facts t
  show V m c main_v4 (((cfg0.win 1).blk t).view.emb y) = _
  refine congrArg (V m c main_v4) (funext fun a => Fin.ext ?_)
  match a with
  | ⟨0, _⟩ => show win0_1.index t (0 : Fin 2) * 4000 + 1 * (y 0).val = win0_8.index t (0 : Fin 2) * 4000 + (y 0).val; omega
  | ⟨1, _⟩ => show win0_1.index t (1 : Fin 2) * 128 + 1 * (y 1).val = (y 1).val; omega

theorem iblk2_apply (c : Dev nD) (t : Fin cfg0.N) (y : S256x256.Idx) : iblk m c 2 t y = V m c main_arg3 y := by
  obtain ⟨-, -, -, -, f0, f1, -⟩ := idx_facts t
  show V m c main_arg3 (((cfg0.win 2).blk t).view.emb y) = _
  refine congrArg (V m c main_arg3) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem iblk3_apply (c : Dev nD) (t : Fin cfg0.N) (y : S1x256.Idx) : iblk m c 3 t y = V m c main_v5 y := by
  obtain ⟨-, -, -, -, -, -, f0, f1, -⟩ := idx_facts t
  show V m c main_v5 (((cfg0.win 3).blk t).view.emb y) = _
  refine congrArg (V m c main_v5) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem iblk4_apply (c : Dev nD) (t : Fin cfg0.N) (y : S256x128.Idx) : iblk m c 4 t y = V m c main_arg5 y := by
  obtain ⟨-, -, -, -, -, -, -, -, f0, f1, -⟩ := idx_facts t
  show V m c main_arg5 (((cfg0.win 4).blk t).view.emb y) = _
  refine congrArg (V m c main_arg5) (funext fun a => Fin.ext ?_)
  match a with
  | ⟨0, _⟩ => show win0_4.index t (0 : Fin 2) * 256 + 1 * (y 0).val = (y 0).val; omega
  | ⟨1, _⟩ => show win0_4.index t (1 : Fin 2) * 128 + 1 * (y 1).val = (y 1).val; omega

theorem iblk5_apply (c : Dev nD) (t : Fin cfg0.N) (y : S1x128.Idx) : iblk m c 5 t y = V m c main_v6 y := by
  obtain ⟨-, -, -, -, -, -, -, -, -, -, f0, f1, -⟩ := idx_facts t
  show V m c main_v6 (((cfg0.win 5).blk t).view.emb y) = _
  refine congrArg (V m c main_v6) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem iblk6_apply (c : Dev nD) (t : Fin cfg0.N) (y : S1x128.Idx) : iblk m c 6 t y = V m c main_v7 y := by
  obtain ⟨-, -, -, -, -, -, -, -, -, -, -, -, f0, f1, -⟩ := idx_facts t
  show V m c main_v7 (((cfg0.win 6).blk t).view.emb y) = _
  refine congrArg (V m c main_v7) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem iblk7_apply (c : Dev nD) (t : Fin cfg0.N) (y : S1x128.Idx) : iblk m c 7 t y = V m c main_v8 y := by
  obtain ⟨-, -, -, -, -, -, -, -, -, -, -, -, -, -, f0, f1, -⟩ := idx_facts t
  show V m c main_v8 (((cfg0.win 7).blk t).view.emb y) = _
  refine congrArg (V m c main_v8) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-! ## What each point writes back, and the array after the run -/

/-- The result array as one function of the arrays the region finds. -/
abbrev result (c : Dev nD) : S100000x128.Idx → EReal :=
  layer (mat (V m c main_arg3)) (row1 (V m c main_v5)) (mat (V m c main_arg5)) (row1 (V m c main_v6))
    (row1 (V m c main_v7)) (row1 (V m c main_v8)) (V m c main_arg0) (V m c main_v4)

/-- WHAT POINT `t` WRITES BACK is block `t` of `result`. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero hz]
  simp only [View.ld_unit_zero (S := S4000x128) hz, View.ld_unit_zero (S := S256x256) hz,
    View.ld_unit_zero (S := S1x256) hz, View.ld_unit_zero (S := S256x128) hz, View.ld_unit_zero (S := S1x128) hz]
  obtain ⟨-, -, -, -, -, -, -, -, -, -, -, -, -, -, -, -, f81, -⟩ := idx_facts t
  funext y
  have hemb : ((cfg0.win 8).blk t).view.emb y = place (base t) (base_le t) y := by
    funext a; apply Fin.ext
    match a with
    | ⟨0, _⟩ => show win0_8.index t (0 : Fin 2) * 4000 + 1 * (y 0).val = win0_8.index t (0 : Fin 2) * 4000 + (y 0).val; omega
    | ⟨1, _⟩ => show win0_8.index t (1 : Fin 2) * 128 + 1 * (y 1).val = (y 1).val; omega
  show k0_pay1 (iblk m c 0 t) (k0_pay4 (iblk m c 0 t) (iblk m c 1 t) (iblk m c 2 t) (iblk m c 3 t) (iblk m c 4 t) (iblk m c 5 t))
      (k0_pay5 (iblk m c 0 t) (iblk m c 1 t) (iblk m c 2 t) (iblk m c 3 t) (iblk m c 4 t) (iblk m c 5 t))
      (Scalar.ofBits .f32 0x3727C5AC#32) (iblk m c 6 t) (iblk m c 7 t) y
    = result m c (((cfg0.win 8).blk t).view.emb y)
  rw [hemb]
  exact point_eq (V m c main_arg0) (V m c main_v4) (V m c main_arg3) (V m c main_v5) (V m c main_arg5) (V m c main_v6)
    (V m c main_v7) (V m c main_v8) (iblk m c 0 t) (iblk m c 1 t) (iblk m c 2 t) (iblk m c 3 t) (iblk m c 4 t)
    (iblk m c 5 t) (iblk m c 6 t) (iblk m c 7 t) (base t) (base_le t)
    (iblk0_apply m c t) (iblk1_apply m c t) (iblk2_apply m c t) (iblk3_apply m c t) (iblk4_apply m c t)
    (iblk5_apply m c t) (iblk6_apply m c t) (iblk7_apply m c t) y

/-- An index of the array is in point `t`'s block iff each coordinate is in the block's range on its axis. -/
theorem mem_blk (t : Fin cfg0.N) (i : S100000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v9).slice (win0_8.rect t)).set ↔ _
  rw [View.set_slice_whole, Rect.mem_set_unit]
  exact Iff.rfl

/-- Every index of the result array is in SOME point's block: row `r` is in block `r / 4000`. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ := idx_onto ⟨(i 0).val / 4000, by omega⟩
  have q0 : win0_8.index t (0 : Fin 2) = (i 0).val / 4000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 4000 ≤ (i 0).val ∧ (i 0).val < win0_8.index t (0 : Fin 2) * 4000 + 4000; omega
  | ⟨1, _⟩ => show win0_8.index t (1 : Fin 2) * 128 ≤ (i 1).val ∧ (i 1).val < win0_8.index t (1 : Fin 2) * 128 + 128; omega

/-- THE ARRAY after the run is `result`. -/
theorem final (c : Dev nD) : (dats m 0 c).arrAt 8 cfg0.N = result m c :=
  (dats m 0 c).arrAt_eq_of_cover 8 (result m c) (fun t _ => flushed_eq m c t) cover

end Cert.KernelIdeal.ArrValue

end
-- ==== Proof.Entry.lean ====
/-
  What the region finds. Before the call the host computes the aggregate (the scatter-sum of the edge features onto
  the nodes, indexed by row 0 of the edge index) and recasts the four bias and scale vectors as one-row matrices;
  the node features and the two weight matrices go in as launched. Read back through those casts, the result array
  is `layer` of the ARGUMENT arrays and the aggregate.
-/
import proofs.«115450_j6133213298854_1_alg».proof.Proof.Blocks
import Idealize.ShloMosaic.Lib.StableHlo.Run
import Idealize.ShloMosaic.Lib.ValueLayout

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.ValueIdx Cert.RowSpec Idealize.ShloMosaic.StableHlo

variable (m : (ℓ : Loc nD τ sig) → Buf (Elt Ideal) ℓ) (ρ : Dev nD → PrngReg)

/-- The aggregate as the host computes it: edge features scattered-and-summed into a zero array at the rows named by
    row 0 of the edge index. -/
def aggOf (ei : S2x600000.Idx → BitVec 32) (ea : S600000x128.Idx → EReal) : S100000x128.Idx → EReal :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0
      (shapeCast S600000 (extractStridedSlice S1x600000 ![0, 0] ei slices_S2x600000_S1x600000_0_0) shapeCasts_S1x600000_S600000))
    ea

theorem V_main_v4 (c : Dev nD) :
    (V m c main_v4 : S100000x128.Idx → EReal) = aggOf (m ((c : Thread nD τ).loc main_arg1)) (m ((c : Thread nD τ).loc main_arg2)) := by
  dsimp only [Gen.V, Gen.hostOps0]; after_results; rfl

theorem V_main_v5 (c : Dev nD) :
    (V m c main_v5 : S1x256.Idx → EReal) = shapeCast S1x256 (m ((c : Thread nD τ).loc main_arg4)) shapeCasts_S256_S1x256 := by
  dsimp only [Gen.V, Gen.hostOps0]; after_results; rfl

theorem V_main_v6 (c : Dev nD) :
    (V m c main_v6 : S1x128.Idx → EReal) = shapeCast S1x128 (m ((c : Thread nD τ).loc main_arg6)) shapeCasts_S128_S1x128 := by
  dsimp only [Gen.V, Gen.hostOps0]; after_results; rfl

theorem V_main_v7 (c : Dev nD) :
    (V m c main_v7 : S1x128.Idx → EReal) = shapeCast S1x128 (m ((c : Thread nD τ).loc main_arg7)) shapeCasts_S128_S1x128 := by
  dsimp only [Gen.V, Gen.hostOps0]; after_results; rfl

theorem V_main_v8 (c : Dev nD) :
    (V m c main_v8 : S1x128.Idx → EReal) = shapeCast S1x128 (m ((c : Thread nD τ).loc main_arg8)) shapeCasts_S128_S1x128 := by
  dsimp only [Gen.V, Gen.hostOps0]; after_results; rfl

/-- The one row of a vector recast as a one-row matrix is the vector. -/
theorem row1_shapeCast {b : ℕ} (v : (⟨1, ![b]⟩ : Shape).Idx → EReal) (h : (⟨1, ![b]⟩ : Shape).ShapeCasts ⟨2, ![1, b]⟩) :
    row1 (shapeCast ⟨2, ![1, b]⟩ v h) = vec v :=
  funext fun j => shapeCast_a_1a_apply v h (0 : Fin 1) j

/-- The result array as one function of the ARGUMENT arrays. -/
abbrev resultOfArgs (c : Dev nD) : S100000x128.Idx → EReal :=
  layer (mat (m ((c : Thread nD τ).loc main_arg3))) (vec (m ((c : Thread nD τ).loc main_arg4))) (mat (m ((c : Thread nD τ).loc main_arg5))) (vec (m ((c : Thread nD τ).loc main_arg6)))
    (vec (m ((c : Thread nD τ).loc main_arg7))) (vec (m ((c : Thread nD τ).loc main_arg8))) (m ((c : Thread nD τ).loc main_arg0))
    (aggOf (m ((c : Thread nD τ).loc main_arg1)) (m ((c : Thread nD τ).loc main_arg2)))

theorem result_eq (c : Dev nD) : result m c = resultOfArgs m c := by
  unfold result resultOfArgs
  rw [V_main_v4, V_main_v5, V_main_v6, V_main_v7, V_main_v8, V_main_arg0, V_main_arg3, V_main_arg5,
    row1_shapeCast, row1_shapeCast, row1_shapeCast, row1_shapeCast]

/-- The kernel's run with its result array named as that function, the arguments unchanged. -/
theorem run : θ_run defs (onTc (τ := τ) (main (F := Ideal))) ⟨m, fun _ => 0, ρ⟩ fun r => ∀ c : Dev nD,
      r.2.mem ((c : Thread nD τ).loc main_v9) = resultOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1.trans (final m c)).trans (result_eq m c), (h c).2⟩)
    (Cert.KernelIdeal.Value.run_blocks m ρ)

end Cert.KernelIdeal.ArrValue

end
-- ==== Proof.RefRow.lean ====
/-
  The reference's result, read at one index (r, j) of the 100000 × 128 array, is the row function of
  Proof/RowSpec.lean applied to row r of the node features, row r of the aggregate (the scatter-sum, kept as
  the term the program computes it by) and the weights.

  The reference joins [x, agg] along the columns and contracts the 256-long joined row against W1 in one sum;
  that sum split at column 128 is the specification's first layer (`pre_of_joined`). Its SiLU is spelt out as
  v · (1 / (1 + exp (−v))), which is `v · logistic v` by the definition of the logistic function on the extended
  reals, once the word 0x3F800000 is read as 1. A host sum from the zero word is the plain sum. Everything else is
  the same operations in the same order.
-/
import proofs.«115450_j6133213298854_1_alg».proof.Proof.Gen.ReferenceIdeal.Read
import proofs.«115450_j6133213298854_1_alg».proof.Proof.RowSpec
import Idealize.ShloMosaic.Lib.ValueIdx
import Idealize.ShloMosaic.Lib.Pipeline.Value
import Idealize.ShloMosaic.PureOps.Ideal.Laws
import Idealize.ShloMosaic.PureOps.IdealRules

noncomputable section

namespace Cert.ReferenceIdeal.RowValue

open Cert.ReferenceIdeal Cert.ReferenceIdeal.Gen Cert.ReferenceIdeal.Read Idealize.ShloMosaic Idealize.ShloMosaic.ValueIdx
open Cert.RowSpec

/-- The f32 word of 1.0 denotes the extended real 1. -/
theorem ofBits_one : Ideal.ofBits .f32 0x3F800000#32 = 1 := IdealRules.sign_bit.ideal_onePat .f32

section
variable (x0 : S100000x128.Idx → EReal) (x1 : S2x600000.Idx → BitVec 32) (x2 : S600000x128.Idx → EReal)
  (x3 : S256x256.Idx → EReal) (x4 : S256.Idx → EReal) (x5 : S256x128.Idx → EReal) (x6 x7 x8 : S128.Idx → EReal)

/-- The aggregate: the scatter-sum of the edge features onto the nodes, as the program computes it. -/
abbrev agg : S100000x128.Idx → EReal := val_main_v4 (F := Ideal) x1 x2

/-! ## The joined row -/

/-- Columns 0..127 of the joined array are the node features. -/
theorem joined_lo (r : Fin 100000) (i : Fin 128) :
    val_main_v5 (F := Ideal) x0 x1 x2 (ix2 r (lo i)) = x0 (ix2 r i) := by
  unfold val_main_v5
  exact concatenate_pair_apply_left 1 x0 _ concatenates_S100000x128_S100000x128_S100000x256_d1 (ix2 r (lo i)) rfl (ix2 r i)
    (fun b => by match b with | ⟨0, _⟩ => rfl | ⟨1, _⟩ => rfl)

/-- Columns 128..255 of the joined array are the aggregate. -/
theorem joined_hi (r : Fin 100000) (i : Fin 128) :
    val_main_v5 (F := Ideal) x0 x1 x2 (ix2 r (hi i)) = agg x1 x2 (ix2 r i) := by
  unfold val_main_v5
  exact concatenate_pair_apply_right 1 x0 _ concatenates_S100000x128_S100000x128_S100000x256_d1 (ix2 r (hi i)) rfl rfl (ix2 r i)
    (fun b hb => by
      match b, hb with
      | ⟨0, _⟩, _ => rfl
      | ⟨1, _⟩, hb => exact absurd rfl hb)
    (by show i.val + 128 = 128 + i.val; omega)

/-! ## The first layer and its activation -/

/-- The first linear layer at (r, k): the one contraction of the joined row, split at column 128. -/
theorem hidden_apply (r : Fin 100000) (k : Fin 256) :
    val_main_v9 (F := Ideal) x0 x1 x2 x3 x4 (ix2 r k)
      = pre (mat x3) (vec x4) (rowAt x0 r) (rowAt (agg x1 x2) r) k := by
  rw [val_main_v9_apply, val_main_v6_apply, val_main_v8_apply, val_main_v7_apply]
  have el : ∀ q, lidx_main_v6 (ix2 r k) q = ix2 r q := fun q => funext fun a => Fin.ext (by match a with | ⟨0, _⟩ => rfl | ⟨1, _⟩ => rfl)
  have er : ∀ q, ridx_main_v6 (ix2 r k) q = ix2 q k := fun q => funext fun a => Fin.ext (by match a with | ⟨0, _⟩ => rfl | ⟨1, _⟩ => rfl)
  have eb : idx_main_v7 (idx_main_v8 (ix2 r k)) = ix1 k := funext fun a => Fin.ext (by match a with | ⟨0, _⟩ => rfl)
  simp only [el, er, eb]
  exact pre_of_joined (mat x3) (vec x4) (rowAt x0 r) (rowAt (agg x1 x2) r)
    (fun q => val_main_v5 (F := Ideal) x0 x1 x2 (ix2 r q)) (joined_lo x0 x1 x2 r) (joined_hi x0 x1 x2 r) k

/-- The host's SiLU, `v · (1 / (1 + exp (−v)))`, is `v · logistic v`. -/
theorem silu_apply (i : S100000x256.Idx) :
    val_main_v10 (F := Ideal) x0 x1 x2 x3 x4 i = act (val_main_v9 (F := Ideal) x0 x1 x2 x3 x4 i) := by
  rw [val_main_v10_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def, ofBits_one]
  rfl

/-! ## The second layer -/

/-- The second linear layer at (r, j): `lin` of row r. -/
theorem lin_apply (r : Fin 100000) (j : Fin 128) :
    val_main_v14 (F := Ideal) x0 x1 x2 x3 x4 x5 x6 (ix2 r j)
      = lin (mat x3) (vec x4) (mat x5) (vec x6) (rowAt x0 r) (rowAt (agg x1 x2) r) j := by
  rw [val_main_v14_apply, val_main_v11_apply, val_main_v13_apply, val_main_v12_apply]
  have el : ∀ k, lidx_main_v11 (ix2 r j) k = ix2 r k := fun k => funext fun a => Fin.ext (by match a with | ⟨0, _⟩ => rfl | ⟨1, _⟩ => rfl)
  have er : ∀ k, ridx_main_v11 (ix2 r j) k = ix2 k j := fun k => funext fun a => Fin.ext (by match a with | ⟨0, _⟩ => rfl | ⟨1, _⟩ => rfl)
  have eb : idx_main_v12 (idx_main_v13 (ix2 r j)) = ix1 j := funext fun a => Fin.ext (by match a with | ⟨0, _⟩ => rfl)
  simp only [el, er, eb, silu_apply, hidden_apply]
  rfl

/-! ## The normalisation -/

/-- The row mean, kept as a column: at (r, ·) the mean of row r of the second layer's output. -/
theorem mean_apply (r : Fin 100000) (u : Fin 1) :
    val_main_v18 (F := Ideal) x0 x1 x2 x3 x4 x5 x6 (ix2 r u) = mean (rowAt (val_main_v14 (F := Ideal) x0 x1 x2 x3 x4 x5 x6) r) := by
  rw [val_main_v18_apply, val_main_v16_apply, val_main_v15_apply, val_main_v17_apply, val_main_cst_1_apply,
    val_main_cst_0_apply]
  have e : ∀ k, idx_main_v15 (idx_main_v16 (ix2 r u)) k = ix2 r k := fun k => funext fun a => Fin.ext (by match a with | ⟨0, _⟩ => rfl | ⟨1, _⟩ => rfl)
  simp only [e, Ideal.ofBits_def, Ideal.ofBits_zero_f32, zero_add, Ideal.hostDivf_def]
  rfl

/-- The centred row, as the variance reads it. -/
theorem centred20_apply (r : Fin 100000) (j : Fin 128) :
    val_main_v20 (F := Ideal) x0 x1 x2 x3 x4 x5 x6 (ix2 r j) = val_main_v14 (F := Ideal) x0 x1 x2 x3 x4 x5 x6 (ix2 r j) - mean (rowAt (val_main_v14 (F := Ideal) x0 x1 x2 x3 x4 x5 x6) r) := by
  rw [val_main_v20_apply, val_main_v19_apply]
  have e : idx_main_v19 (ix2 r j) = ix2 r (0 : Fin 1) := funext fun a => Fin.ext (by match a with | ⟨0, _⟩ => rfl | ⟨1, _⟩ => rfl)
  rw [e, mean_apply]
  rfl

/-- The centred row, as the result reads it. -/
theorem centred27_apply (r : Fin 100000) (j : Fin 128) :
    val_main_v27 (F := Ideal) x0 x1 x2 x3 x4 x5 x6 (ix2 r j) = val_main_v14 (F := Ideal) x0 x1 x2 x3 x4 x5 x6 (ix2 r j) - mean (rowAt (val_main_v14 (F := Ideal) x0 x1 x2 x3 x4 x5 x6) r) := by
  rw [val_main_v27_apply, val_main_v26_apply]
  have e : idx_main_v26 (ix2 r j) = ix2 r (0 : Fin 1) := funext fun a => Fin.ext (by match a with | ⟨0, _⟩ => rfl | ⟨1, _⟩ => rfl)
  rw [e, mean_apply]
  rfl

/-- The row variance, kept as a column: at (r, ·) the mean of the squared centred row. -/
theorem var_apply (r : Fin 100000) (u : Fin 1) :
    val_main_v25 (F := Ideal) x0 x1 x2 x3 x4 x5 x6 (ix2 r u)
      = mean (fun q => (rowAt (val_main_v14 (F := Ideal) x0 x1 x2 x3 x4 x5 x6) r q - mean (rowAt (val_main_v14 (F := Ideal) x0 x1 x2 x3 x4 x5 x6) r))
          * (rowAt (val_main_v14 (F := Ideal) x0 x1 x2 x3 x4 x5 x6) r q - mean (rowAt (val_main_v14 (F := Ideal) x0 x1 x2 x3 x4 x5 x6) r))) := by
  rw [val_main_v25_apply, val_main_v23_apply, val_main_v22_apply, val_main_v24_apply, val_main_cst_3_apply,
    val_main_cst_2_apply]
  have e : ∀ k, idx_main_v22 (idx_main_v23 (ix2 r u)) k = ix2 r k := fun k => funext fun a => Fin.ext (by match a with | ⟨0, _⟩ => rfl | ⟨1, _⟩ => rfl)
  simp only [e, val_main_v21_apply, centred20_apply, Ideal.ofBits_def, Ideal.ofBits_zero_f32, zero_add,
    Ideal.hostDivf_def, Ideal.mulf_def]
  rfl

/-! ## The result -/

/-- The reference's result at (r, j) is the row function at row r. -/
theorem result_apply (r : Fin 100000) (j : Fin 128) :
    val_main_v39 (F := Ideal) x0 x1 x2 x3 x4 x5 x6 x7 x8 (ix2 r j)
      = rowOut (mat x3) (vec x4) (mat x5) (vec x6) (vec x7) (vec x8) (rowAt x0 r) (rowAt (agg x1 x2) r) j := by
  have hrow : rowAt (val_main_v14 (F := Ideal) x0 x1 x2 x3 x4 x5 x6) r = lin (mat x3) (vec x4) (mat x5) (vec x6) (rowAt x0 r) (rowAt (agg x1 x2) r) :=
    funext fun q => lin_apply x0 x1 x2 x3 x4 x5 x6 r q
  rw [val_main_v39_apply, val_main_v38_apply, val_main_v35_apply, val_main_v32_apply, val_main_v31_apply,
    val_main_v30_apply, val_main_v29_apply, val_main_v28_apply, val_main_cst_4_apply, val_main_v34_apply,
    val_main_v33_apply, val_main_v37_apply, val_main_v36_apply]
  have e31 : idx_main_v31 (ix2 r j) = ix2 r (0 : Fin 1) := funext fun a => Fin.ext (by match a with | ⟨0, _⟩ => rfl | ⟨1, _⟩ => rfl)
  have e34 : idx_main_v33 (idx_main_v34 (ix2 r j)) = ix1 j := funext fun a => Fin.ext (by match a with | ⟨0, _⟩ => rfl)
  have e37 : idx_main_v36 (idx_main_v37 (ix2 r j)) = ix1 j := funext fun a => Fin.ext (by match a with | ⟨0, _⟩ => rfl)
  have hq : ∀ q, rowAt (val_main_v14 (F := Ideal) x0 x1 x2 x3 x4 x5 x6) r q
      = lin (mat x3) (vec x4) (mat x5) (vec x6) (rowAt x0 r) (rowAt (agg x1 x2) r) q := fun q => congrFun hrow q
  simp only [e31, e34, e37, centred27_apply, var_apply, lin_apply, hrow, hq, Ideal.addf_def, Ideal.mulf_def,
    Ideal.hostUnary_rsqrt_def, Ideal.ofBits_def]
  rfl

/-- The reference's whole result is `layer` of its argument arrays and the aggregate. -/
theorem ref_result :
    val_main_v39 (F := Ideal) x0 x1 x2 x3 x4 x5 x6 x7 x8
      = layer (mat x3) (vec x4) (mat x5) (vec x6) (vec x7) (vec x8) x0 (agg x1 x2) := by
  funext i
  obtain ⟨r, j, rfl⟩ : ∃ (r : Fin 100000) (j : Fin 128), i = ix2 r j := ⟨i 0, i 1, eq_ix2 i⟩
  exact result_apply x0 x1 x2 x3 x4 x5 x6 x7 x8 r j

end

end Cert.ReferenceIdeal.RowValue

end
-- ==== Proof.lean ====
/-
  The certificate of one GNN update layer. For N = 100000 nodes with 128 features x, E = 600000 edges with 128
  features and destination indices, and an MLP 256 → 256 → 128:

    agg      = scatter-sum of the edge features onto their destination nodes
    h        = SiLU ([x, agg] · W1 + b1) · W2 + b2
    result   = LayerNorm (h) · γ + β + x            (mean and variance over the 128 features, variance floor ε)

  The kernel computes agg on the host and the rest in one pipelined call over 25 blocks of 4000 rows, with
  [x, agg] · W1 split as x · W1[0:128] + agg · W1[128:256] and the matrix products fed through bf16; the reference
  is the plain jnp text. On the extended reals, with every float operation exact and a change of format the
  identity, both compute, row by row, the same function `Cert.RowSpec.rowOut` of row r of x, row r of agg and the
  weights (Proof/KernelRow.lean for a block's entry, Proof/Blocks.lean and Proof/Entry.lean for the whole array;
  Proof/RefRow.lean for the reference). The one law that joins them is that a sum over 256 coordinates is the sum
  over the first 128 plus the sum over the last 128, which holds in any commutative monoid: the precondition
  (finite inputs) is never opened. The aggregate is the same host term on both sides and is never evaluated.
  The idealized kernel is the kernel's own text read at the ideal values (no operation was rewritten), so
  `preserves` is trivial.
-/
import proofs.«115450_j6133213298854_1_alg».proof.Defs
import proofs.«115450_j6133213298854_1_alg».proof.Proof.Gen.Kernel
import proofs.«115450_j6133213298854_1_alg».proof.Proof.Gen.Kernel.Skeleton
import proofs.«115450_j6133213298854_1_alg».proof.Proof.Gen.Kernel.Launch
import proofs.«115450_j6133213298854_1_alg».proof.Proof.Gen.Kernel.Points
import proofs.«115450_j6133213298854_1_alg».proof.Proof.Gen.Kernel.Frame
import proofs.«115450_j6133213298854_1_alg».proof.Proof.Gen.KernelIdeal
import proofs.«115450_j6133213298854_1_alg».proof.Proof.Gen.KernelIdeal.Skeleton
import proofs.«115450_j6133213298854_1_alg».proof.Proof.Gen.KernelIdeal.Launch
import proofs.«115450_j6133213298854_1_alg».proof.Proof.Gen.KernelIdeal.Points
import proofs.«115450_j6133213298854_1_alg».proof.Proof.Gen.KernelIdeal.Frame
import proofs.«115450_j6133213298854_1_alg».proof.Proof.Gen.ReferenceIdeal
import proofs.«115450_j6133213298854_1_alg».proof.Proof.Gen.KernelIdeal.Value
import proofs.«115450_j6133213298854_1_alg».proof.Proof.Gen.ReferenceIdeal.Run
import proofs.«115450_j6133213298854_1_alg».proof.Proof.Gen.ReferenceIdeal.Read
import proofs.«115450_j6133213298854_1_alg».proof.Proof.Gen.Pre_finite_inputs
import proofs.«115450_j6133213298854_1_alg».proof.Proof.Entry
import proofs.«115450_j6133213298854_1_alg».proof.Proof.RefRow
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The aggregate is one host term in both programs: the same slice, cast, broadcasts and scatter-sum. -/
theorem agg_eq (ei : Cert.KernelIdeal.S2x600000.Idx → BitVec 32) (ea : Cert.KernelIdeal.S600000x128.Idx → EReal) :
    Cert.KernelIdeal.ArrValue.aggOf ei ea = Cert.ReferenceIdeal.RowValue.agg ei ea := rfl

/-- From memories that agree on the arguments both programs end with the result array at `layer` of the arguments
    and the aggregate: the kernel's by its blocks, the reference's by its stages. -/
theorem algebraic : Cert.algebraic_KernelIdeal_ReferenceIdeal := by
  intro m ρ m' ρ' _ hagree
  refine ⟨fun c => Cert.KernelIdeal.ArrValue.resultOfArgs m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v39_eq, Cert.ReferenceIdeal.RowValue.ref_result, h0, h1, h2, h3, h4, h5, h6, h7, h8,
    ← agg_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
